-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x4096 : Shape := ⟨2, ![32, 4096]⟩
abbrev S256x256 : Shape := ⟨2, ![256, 256]⟩
abbrev S256 : Shape := ⟨1, ![256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32x4096x256 .f32) (main_arg1 : IVec S32x4096 1) (main_arg2 : FVec F S256x256 .f32) (main_arg3 : FVec F S256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x4096x256 : Shape := ⟨3, ![32, 4096, 256]⟩
abbrev S32x4096 : Shape := ⟨2, ![32, 4096]⟩
abbrev S256x256 : Shape := ⟨2, ![256, 256]⟩
abbrev S256 : Shape := ⟨1, ![256]⟩
abbrev S131072x256 : Shape := ⟨2, ![131072, 256]⟩
abbrev S131072x1 : Shape := ⟨2, ![131072, 1]⟩
abbrev S4096x256 : Shape := ⟨2, ![4096, 256]⟩
abbrev S4096x1 : Shape := ⟨2, ![4096, 1]⟩
abbrev S1x256 : Shape := ⟨2, ![1, 256]⟩

abbrev nBuf : Space → Nat
  | .hbm => 9
  | .vmem => 8
  | .smem => 0
  | _ => 0

abbrev bufTy : (tb : Table) → Fin (tcTables nBuf tb) → BufTy
  | .hbm, ⟨0, _⟩ => ⟨S32x4096x256, .f32⟩
  | .hbm, ⟨1, _⟩ => ⟨S32x4096, .i1⟩
  | .hbm, ⟨2, _⟩ => ⟨S256x256, .f32⟩
  | .hbm, ⟨3, _⟩ => ⟨S256, .f32⟩
  | .hbm, ⟨4, _⟩ => ⟨S131072x256, .f32⟩
  | .hbm, ⟨5, _⟩ => ⟨S131072x1, .i1⟩
  | .hbm, ⟨6, _⟩ => ⟨S131072x1, .f32⟩
  | .hbm, ⟨7, _⟩ => ⟨S131072x256, .f32⟩
  | .hbm, ⟨8, _⟩ => ⟨S32x4096x256, .f32⟩
  | .local _ .vmem, ⟨0, _⟩ => ⟨S4096x256, .f32⟩
  | .local _ .vmem, ⟨1, _⟩ => ⟨S4096x256, .f32⟩
  | .local _ .vmem, ⟨2, _⟩ => ⟨S4096x1, .f32⟩
  | .local _ .vmem, ⟨3, _⟩ => ⟨S4096x1, .f32⟩
  | .local _ .vmem, ⟨4, _⟩ => ⟨S256x256, .f32⟩
  | .local _ .vmem, ⟨5, _⟩ => ⟨S256, .f32⟩
  | .local _ .vmem, ⟨6, _⟩ => ⟨S4096x256, .f32⟩
  | .local _ .vmem, ⟨7, _⟩ => ⟨S4096x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x4096x256_S131072x256 : S32x4096x256.ShapeCasts S131072x256
  shapeCasts_S32x4096_S131072x1 : S32x4096.ShapeCasts S131072x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  shapeCasts_S131072x256_S32x4096x256 : S131072x256.ShapeCasts S32x4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .f32 = 32 ∨ (Rect.block (s := S131072x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S131072x256.size a
  hwx0_4 : ∀ i : grid0.Coords, EltTy.bits .f32 = 32 ∨ (Rect.block (s := S131072x256) S4096x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x4096 : Shape := ⟨2, ![32, 4096]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S32x4096x1 : Shape := ⟨3, ![32, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096, .i1⟩
  | .hbm, ⟨2, _⟩ => ⟨S256x256, .f32⟩
  | .hbm, ⟨3, _⟩ => ⟨S256, .f32⟩
  | .hbm, ⟨4, _⟩ => ⟨S32x4096x256, .f32⟩
  | .hbm, ⟨5, _⟩ => ⟨S1x1x256, .f32⟩
  | .hbm, ⟨6, _⟩ => ⟨S32x4096x256, .f32⟩
  | .hbm, ⟨7, _⟩ => ⟨S32x4096x256, .f32⟩
  | .hbm, ⟨8, _⟩ => ⟨S_, .f32⟩
  | .hbm, ⟨9, _⟩ => ⟨S32x4096x256, .f32⟩
  | .hbm, ⟨10, _⟩ => ⟨S32x4096x256, .f32⟩
  | .hbm, ⟨11, _⟩ => ⟨S32x4096x1, .i1⟩
  | .hbm, ⟨12, _⟩ => ⟨S_, .f32⟩
  | .hbm, ⟨13, _⟩ => ⟨S32x4096x256, .i1⟩
  | .hbm, ⟨14, _⟩ => ⟨S32x4096x256, .f32⟩
  | .hbm, ⟨15, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S_S32x4096x256 : S_.BroadcastsInDim S32x4096x256 (![] : Fin 0 → Fin S32x4096x256.rank)
  bcast_S32x4096_S32x4096x1_0_1 : S32x4096.BroadcastsInDim S32x4096x1 (![0, 1] : Fin 2 → Fin S32x4096x1.rank)
  bcast_S32x4096x1_S32x4096x256_0_1_2 : S32x4096x1.BroadcastsInDim S32x4096x256 (![0, 1, 2] : Fin 3 → Fin S32x4096x256.rank)
  dot_S32x4096x256_S256x256_S32x4096x256_2_0_01_1_n_n_wf : DotDims.WF S32x4096x256 S256x256 S32x4096x256 [2] [0] [0, 1] [1] [] []

variable [Facts₀]

def dot_S32x4096x256_S256x256_S32x4096x256_2_0_01_1_n_n : DotDims S32x4096x256 S256x256 S32x4096x256 where
  lhsContracting := [2]
  rhsContracting := [0]
  lhsNonContracting := [0, 1]
  rhsNonContracting := [1]
  lhsBatch := []
  rhsBatch := []
  wf := dot_S32x4096x256_S256x256_S32x4096x256_2_0_01_1_n_n_wf

class Facts : Prop extends Facts₀ where

variable [Facts]
-- ==== Proof.MaskedLinear.lean ====
/-
  The function both programs compute, and the one scalar law that joins them.

  For a token (b, s) of the batch and an output channel e,
      out[b, s, e] = max (Σ_k x[b, s, k] · W[k, e] + bias[e]) 0     where mask[b, s] is set,
      out[b, s, e] = 0                                              where it is clear.
  The kernel works on the tokens flattened to rows r = b · 4096 + s, and multiplies the rectified value by the
  mask bit read as the number 0 or 1; the reference selects between the rectified value and zero. On the extended
  reals y · 1 = y and y · 0 = 0 hold for EVERY y, the infinities included, so the two agree with no finiteness
  hypothesis on the inputs.
-/
import Idealize.ShloMosaic.PureOps.Ideal
import Idealize.ShloMosaic.PureOps.Ideal.Laws
import Idealize.ShloMosaic.Lib.Pipeline.Value
import Idealize.ShloMosaic.Lib.ValueIdx

noncomputable section

namespace Cert.MaskedLinear

open Idealize.ShloMosaic Idealize.ShloMosaic.ValueIdx

/-! ## The scalar law -/

/-- Multiplying by a bit read as a number keeps the value where the bit is set and gives zero where it is clear:
    y · 1 = y and y · 0 = 0 on the extended reals, whatever y is. -/
theorem mul_bit_eq_select (y : EReal) (b : BitVec 1) :
    y * (((b.toNat : ℝ) : EReal)) = Scalar.select b y (Ideal.ofBits .f32 0x00000000#32) := by
  by_cases h : b = 1#1
  · subst h
    rw [select_one]
    show y * (((1 : ℕ) : ℝ) : EReal) = y
    rw [Nat.cast_one, EReal.coe_one, mul_one]
  · have h0 : b = 0#1 := eq_zero_of_ne_one h
    subst h0
    rw [select_zero, Ideal.ofBits_zero_f32]
    show y * (((0 : ℕ) : ℝ) : EReal) = 0
    rw [Nat.cast_zero, EReal.coe_zero, mul_zero]

/-! ## The value per token -/

/-- The rectified affine image of token (b, s) at channel e. -/
def rectified (x : (⟨3, ![32, 4096, 256]⟩ : Shape).Idx → EReal) (W : (⟨2, ![256, 256]⟩ : Shape).Idx → EReal)
    (bias : (⟨1, ![256]⟩ : Shape).Idx → EReal) (b : Fin 32) (s : Fin 4096) (e : Fin 256) : EReal :=
  max ((∑ k : Fin 256, x (ix3 b s k) * W (ix2 k e)) + bias (ix1 e)) (Ideal.ofBits .f32 0x00000000#32)

/-- The whole result: the rectified value on the tokens the mask keeps, zero on the others. -/
def masked (x : (⟨3, ![32, 4096, 256]⟩ : Shape).Idx → EReal) (mask : (⟨2, ![32, 4096]⟩ : Shape).Idx → BitVec 1)
    (W : (⟨2, ![256, 256]⟩ : Shape).Idx → EReal) (bias : (⟨1, ![256]⟩ : Shape).Idx → EReal) :
    (⟨3, ![32, 4096, 256]⟩ : Shape).Idx → EReal := fun i =>
  Scalar.select (mask (ix2 (i 0) (i 1))) (rectified x W bias (i 0) (i 1) (i 2)) (Ideal.ofBits .f32 0x00000000#32)

/-- The same over rows: row r of the flattened input against the weights, rectified, times the row's mask number. -/
def rowValue (X : (⟨2, ![131072, 256]⟩ : Shape).Idx → EReal) (M : (⟨2, ![131072, 1]⟩ : Shape).Idx → EReal)
    (W : (⟨2, ![256, 256]⟩ : Shape).Idx → EReal) (bias : (⟨1, ![256]⟩ : Shape).Idx → EReal) :
    (⟨2, ![131072, 256]⟩ : Shape).Idx → EReal := fun j =>
  max ((∑ k : Fin 256, X (ix2 (j 0) k) * W (ix2 k (j 1))) + bias (ix1 (j 1))) (Ideal.ofBits .f32 0x00000000#32)
    * M (ix2 (j 0) (0 : Fin 1))

/-! ## Tokens as rows: the three reshapes read at an index -/

variable {α : Type}

/-- The batch of tokens flattened to rows: row b · 4096 + s is token (b, s). -/
theorem flatten_apply (x : (⟨3, ![32, 4096, 256]⟩ : Shape).Idx → α)
    (h : (⟨3, ![32, 4096, 256]⟩ : Shape).ShapeCasts ⟨2, ![131072, 256]⟩)
    (b : Fin 32) (s : Fin 4096) (e : Fin 256) (r : Fin 131072) (hr : r.val = b.val * 4096 + s.val) :
    shapeCast ⟨2, ![131072, 256]⟩ x h (ix2 r e) = x (ix3 b s e) :=
  shapeCast_apply x h _ _ (by
    rw [Shape.rowMajor_val_three, Shape.rowMajor_val_two]
    show (b.val * 4096 + s.val) * 256 + e.val = r.val * 256 + e.val
    rw [hr])

/-- The rows unflattened to the batch of tokens: token (b, s) is row b · 4096 + s. -/
theorem unflatten_apply (y : (⟨2, ![131072, 256]⟩ : Shape).Idx → α)
    (h : (⟨2, ![131072, 256]⟩ : Shape).ShapeCasts ⟨3, ![32, 4096, 256]⟩)
    (b : Fin 32) (s : Fin 4096) (e : Fin 256) (r : Fin 131072) (hr : r.val = b.val * 4096 + s.val) :
    shapeCast ⟨3, ![32, 4096, 256]⟩ y h (ix3 b s e) = y (ix2 r e) :=
  shapeCast_apply y h _ _ (by
    rw [Shape.rowMajor_val_three, Shape.rowMajor_val_two]
    show r.val * 256 + e.val = (b.val * 4096 + s.val) * 256 + e.val
    rw [hr])

/-- The mask flattened to a column: its row b · 4096 + s is the bit of token (b, s). -/
theorem flattenMask_apply (mk : (⟨2, ![32, 4096]⟩ : Shape).Idx → α)
    (h : (⟨2, ![32, 4096]⟩ : Shape).ShapeCasts ⟨2, ![131072, 1]⟩)
    (b : Fin 32) (s : Fin 4096) (r : Fin 131072) (hr : r.val = b.val * 4096 + s.val) :
    shapeCast ⟨2, ![131072, 1]⟩ mk h (ix2 r (0 : Fin 1)) = mk (ix2 b s) :=
  shapeCast_apply mk h _ _ (by
    rw [Shape.rowMajor_val_two, Shape.rowMajor_val_two]
    show b.val * 4096 + s.val = r.val * 1 + 0
    rw [hr, Nat.mul_one, Nat.add_zero])

/-! ## A column broadcast along the rows -/

/-- An [a, 1] column broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row form, unflattened, is the token form -/

/-- With the input flattened to rows and the mask flattened to a column of numbers, the row value at row
    b · 4096 + s is the masked value of token (b, s): the two sums are over the same entries, and the product with
    the mask number is the selection. -/
theorem rowValue_eq_masked (x : (⟨3, ![32, 4096, 256]⟩ : Shape).Idx → EReal)
    (mask : (⟨2, ![32, 4096]⟩ : Shape).Idx → BitVec 1)
    (W : (⟨2, ![256, 256]⟩ : Shape).Idx → EReal) (bias : (⟨1, ![256]⟩ : Shape).Idx → EReal)
    (X : (⟨2, ![131072, 256]⟩ : Shape).Idx → EReal) (M : (⟨2, ![131072, 1]⟩ : Shape).Idx → EReal)
    (b : Fin 32) (s : Fin 4096) (e : Fin 256) (r : Fin 131072)
    (hX : ∀ k : Fin 256, X (ix2 r k) = x (ix3 b s k))
    (hM : M (ix2 r (0 : Fin 1)) = (((mask (ix2 b s)).toNat : ℝ) : EReal)) :
    rowValue X M W bias (ix2 r e) = masked x mask W bias (ix3 b s e) := by
  show max ((∑ k : Fin 256, X (ix2 r k) * W (ix2 k e)) + bias (ix1 e)) (Ideal.ofBits .f32 0x00000000#32)
      * M (ix2 r (0 : Fin 1))
    = Scalar.select (mask (ix2 b s)) (rectified x W bias b s e) (Ideal.ofBits .f32 0x00000000#32)
  rw [hM, mul_bit_eq_select]
  unfold rectified
  rw [Finset.sum_congr rfl fun k _ => by rw [hX k]]

end Cert.MaskedLinear

end
-- ==== Proof.Reference.lean ====
/-
  The reference's result is the masked rectified affine map.

  Read one operation at a time, the reference's entry at (b, s, e) is the selection, by the mask bit of token (b, s)
  broadcast along the channels, between max (Σ_k x[b, s, k] · W[k, e] + bias[e]) 0 and 0: the contraction runs over
  the input's last axis and the weights' first, the bias is broadcast along batch and sequence.
-/
import proofs.«110262_j10806137716859_1_alg».proof.Proof.Gen.ReferenceIdeal.Read
import proofs.«110262_j10806137716859_1_alg».proof.Proof.MaskedLinear

noncomputable section

namespace Cert.ReferenceIdeal.RefValue

open Cert.ReferenceIdeal Cert.ReferenceIdeal.Read Idealize.ShloMosaic Idealize.ShloMosaic.ValueIdx Cert.MaskedLinear

/-- The reference's result term, at the extended reals, is `masked` of its four arguments. -/
theorem result_eq_masked (x0 : (⟨S32x4096x256, .f32⟩ : BufTy).Contents (Elt Ideal))
    (x1 : (⟨S32x4096, .i1⟩ : BufTy).Contents (Elt Ideal)) (x2 : (⟨S256x256, .f32⟩ : BufTy).Contents (Elt Ideal))
    (x3 : (⟨S256, .f32⟩ : BufTy).Contents (Elt Ideal)) :
    val_main_v6 (F := Ideal) x0 x1 x2 x3 = masked x0 x1 x2 x3 := by
  funext i
  -- the token whose mask bit the selection reads
  have eMask : idx_main_v5 (idx_main_call1_v0 i) = ix2 (i 0) (i 1) :=
    funext fun a => Fin.ext (by match a with | ⟨0, _⟩ => rfl | ⟨1, _⟩ => rfl)
  -- the input entry and the weight entry the k-th product reads
  have eLhs : ∀ k : Fin 256, lidx_main_v0 i k = ix3 (i 0) (i 1) k := fun k =>
    funext fun a => Fin.ext (by match a with | ⟨0, _⟩ => rfl | ⟨1, _⟩ => rfl | ⟨2, _⟩ => rfl)
  have eRhs : ∀ k : Fin 256, ridx_main_v0 i k = ix2 k (i 2) := fun k =>
    funext fun a => Fin.ext (by match a with | ⟨0, _⟩ => rfl | ⟨1, _⟩ => rfl)
  -- the bias entry
  have eBias : idx_main_v1 (idx_main_v2 i) = ix1 (i 2) :=
    funext fun a => Fin.ext (by match a with | ⟨0, _⟩ => rfl)
  rw [val_main_v6_apply, val_main_call1_v0_apply, val_main_v5_apply, val_main_v4_apply, val_main_v3_apply,
    val_main_v0_apply, val_main_v2_apply, val_main_v1_apply, val_main_call0_v0_apply, val_main_call0_cst_apply,
    val_main_call1_v1_apply, val_main_cst_apply, eMask, eBias]
  simp only [eLhs, eRhs]
  rfl

end Cert.ReferenceIdeal.RefValue

end
-- ==== Proof.KernelBody.lean ====
/-
  The kernel body at one entry of its block.

  At a grid point the body holds a block of 4096 rows of the flattened input, the matching 4096 entries of the mask
  column (as numbers), all the weights and the bias. Entry (p, q) of what it stores is
      max (Σ_k x[p, k] · W[k, q] + bias[q]) 0 · m[p]:
  the change of float format before the product is the identity on the extended reals, the matrix product into the
  zero accumulator is the plain sum over the contracted axis, the bias is one row broadcast over the rows and the
  mask one column broadcast over the channels.
-/
import proofs.«110262_j10806137716859_1_alg».proof.Proof.Gen.KernelIdeal.Skeleton
import proofs.«110262_j10806137716859_1_alg».proof.Proof.MaskedLinear
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.MaskedLinear

/-! ## The matrix product's operand indices -/

/-- The left operand's row is the output's row. -/
theorem lhs_row (i : S4096x256.Idx) (c : dot_S4096x256_S256x256_S4096x256_1_0_0_1_n_n.contr.Idx) :
    (dot_S4096x256_S256x256_S4096x256_1_0_0_1_n_n.lhsIdx i c 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- The left operand's column is the contraction index. -/
theorem lhs_col (i : S4096x256.Idx) (c : dot_S4096x256_S256x256_S4096x256_1_0_0_1_n_n.contr.Idx) :
    (dot_S4096x256_S256x256_S4096x256_1_0_0_1_n_n.lhsIdx i c 1).val = (c ⟨0, by decide⟩).val :=
  dot_S4096x256_S256x256_S4096x256_1_0_0_1_n_n.lhsIdx_val_of_single rfl i c
/-- The right operand's row is the contraction index. -/
theorem rhs_row (i : S4096x256.Idx) (c : dot_S4096x256_S256x256_S4096x256_1_0_0_1_n_n.contr.Idx) :
    (dot_S4096x256_S256x256_S4096x256_1_0_0_1_n_n.rhsIdx i c 0).val = (c ⟨0, by decide⟩).val :=
  dot_S4096x256_S256x256_S4096x256_1_0_0_1_n_n.rhsIdx_val_of_single rfl i c
/-- The right operand's column is the output's column. -/
theorem rhs_col (i : S4096x256.Idx) (c : dot_S4096x256_S256x256_S4096x256_1_0_0_1_n_n.contr.Idx) :
    (dot_S4096x256_S256x256_S4096x256_1_0_0_1_n_n.rhsIdx i c 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The block's matrix product into the zero accumulator, at (p, q): the sum over k of row p of the left operand
    against column q of the right. -/
theorem matmul_at (l : FVec Ideal S4096x256 .bf16) (r : FVec Ideal S256x256 .bf16) (p : Fin 4096) (q : Fin 256) :
    matmul dot_S4096x256_S256x256_S4096x256_1_0_0_1_n_n none l r (constant S4096x256 .f32 0x00000000#32) (ix2 p q)
      = ∑ k : Fin 256, l (ix2 p k) * r (ix2 k q) := by
  simp only [matmul]
  rw [Ideal.matmul_constant_zero_apply,
    ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p q)
      ((ValueIdx.contrEquiv1 dot_S4096x256_S256x256_S4096x256_1_0_0_1_n_n 256 rfl rfl).symm k) = ix2 p k :=
    funext fun a => Fin.ext (by
      match a with
      | ⟨0, _⟩ => exact lhs_row _ _
      | ⟨1, _⟩ => exact (lhs_col _ _).trans hk)
  have er : dot_S4096x256_S256x256_S4096x256_1_0_0_1_n_n.rhsIdx (ix2 p q)
      ((ValueIdx.contrEquiv1 dot_S4096x256_S256x256_S4096x256_1_0_0_1_n_n 256 rfl rfl).symm k) = ix2 k q :=
    funext fun a => Fin.ext (by
      match a with
      | ⟨0, _⟩ => exact (rhs_row _ _).trans hk
      | ⟨1, _⟩ => exact rhs_col _ _)
  rw [el, er]

/-! ## What the body stores, entry by entry -/

/-- Entry (p, q) of the stored block, from the four loaded blocks. -/
theorem stored_apply (v0 : Vec Ideal S4096x256 .f32) (v3 : Vec Ideal S256x256 .f32) (v6 : Vec Ideal S256 .f32)
    (v12 : Vec Ideal S4096x1 .f32) (p : Fin 4096) (q : Fin 256) :
    k0_pay1 (F := Ideal) v0 v3 v6 v12 (ix2 p q)
      = max ((∑ k : Fin 256, v0 (ix2 p k) * v3 (ix2 k q)) + v6 (ix1 q)) (Ideal.ofBits .f32 0x00000000#32)
          * v12 (ix2 p (0 : Fin 1)) := by
  unfold k0_pay1
  rw [mulf_apply, maximumf_apply, addf_apply, broadcast_apply, matmul_at, broadcastTo_1b_ab_apply,
    shapeCast_a_1a_apply, broadcastTo_a1_ab_apply, shapeCast_self, shapeCast_self]
  rfl

end Cert.KernelIdeal.Body

end
-- ==== Proof.KernelRows.lean ====
/-
  The kernel's output array after the run, as rows.

  Grid point t works on rows 4096 t … 4096 t + 4095: it reads that block of the flattened input and of the mask
  column, all the weights and the bias, and writes back the same rows of the output. So what point t writes back is
  block t of ONE function of the arrays, the row value, and the 32 blocks cover the 131072 rows.
-/
import proofs.«110262_j10806137716859_1_alg».proof.Proof.Gen.KernelIdeal.Frame
import proofs.«110262_j10806137716859_1_alg».proof.Proof.KernelBody
import proofs.«110262_j10806137716859_1_alg».proof.Proof.MaskedLinear
import Idealize.ShloMosaic.Lib.Pipeline.Value

set_option maxRecDepth 16384

noncomputable section

namespace Cert.KernelIdeal.Rows

open Cert.KernelIdeal Cert.KernelIdeal.Gen Cert.KernelIdeal.Body Cert.MaskedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays the region finds, and a point's blocks of them -/

/-- The flattened input, 131072 rows of 256. -/
abbrev arrX (c : Dev nD) : Vec Ideal S131072x256 .f32 := V m c main_v0
/-- The mask as a column of numbers. -/
abbrev arrM (c : Dev nD) : Vec Ideal S131072x1 .f32 := V m c main_v2
/-- The weights. -/
abbrev arrW (c : Dev nD) : Vec Ideal S256x256 .f32 := V m c main_arg2
/-- The bias. -/
abbrev arrB (c : Dev nD) : Vec Ideal S256 .f32 := V m c main_arg3

abbrev blkX (c : Dev nD) (t : Fin cfg0.N) : Vec Ideal S4096x256 .f32 := iblk m c 0 t
abbrev blkM (c : Dev nD) (t : Fin cfg0.N) : Vec Ideal S4096x1 .f32 := iblk m c 1 t
abbrev blkW (c : Dev nD) (t : Fin cfg0.N) : Vec Ideal S256x256 .f32 := iblk m c 2 t
abbrev blkB (c : Dev nD) (t : Fin cfg0.N) : Vec Ideal S256 .f32 := iblk m c 3 t

/-- Where each window's block sits at point t: input, mask and output at block row t, weights and bias at their one
    block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 32 :=
  lt_of_lt_of_eq t.isLt N_0

/-- The row of the arrays that row p of point t's block is. -/
def rowOf (t : Fin cfg0.N) (p : Fin 4096) : Fin 131072 :=
  ⟨t.val * 4096 + p.val, by have := point_lt t; have := p.isLt; omega⟩

/-- Point t's input block is rows 4096 t … of the flattened input. -/
theorem blkX_apply (c : Dev nD) (t : Fin cfg0.N) (p : Fin 4096) (k : Fin 256) :
    blkX m c t (ix2 p k) = arrX m c (ix2 (rowOf t p) k) := by
  obtain ⟨e0, e1, -⟩ := idx_facts t
  show V m c main_v0 (((cfg0.win 0).blk t).view.emb (ix2 p k)) = V m c main_v0 (ix2 (rowOf t p) k)
  have h : ((cfg0.win 0).blk t).view.emb (ix2 p k) = ix2 (rowOf t p) k := by
    funext a; apply Fin.ext
    match a with
    | ⟨0, _⟩ => show win0_0.index t (0 : Fin 2) * 4096 + 1 * p.val = t.val * 4096 + p.val; rw [e0]; omega
    | ⟨1, _⟩ => show win0_0.index t (1 : Fin 2) * 256 + 1 * k.val = k.val; rw [e1]; omega
  rw [h]

/-- Point t's mask block is the same rows of the mask column. -/
theorem blkM_apply (c : Dev nD) (t : Fin cfg0.N) (p : Fin 4096) :
    blkM m c t (ix2 p (0 : Fin 1)) = arrM m c (ix2 (rowOf t p) (0 : Fin 1)) := by
  obtain ⟨-, -, e0, e1, -⟩ := idx_facts t
  show V m c main_v2 (((cfg0.win 1).blk t).view.emb (ix2 p (0 : Fin 1))) = V m c main_v2 (ix2 (rowOf t p) (0 : Fin 1))
  have h : ((cfg0.win 1).blk t).view.emb (ix2 p (0 : Fin 1)) = ix2 (rowOf t p) (0 : Fin 1) := by
    funext a; apply Fin.ext
    match a with
    | ⟨0, _⟩ => show win0_1.index t (0 : Fin 2) * 4096 + 1 * p.val = t.val * 4096 + p.val; rw [e0]; omega
    | ⟨1, _⟩ => show win0_1.index t (1 : Fin 2) * 1 + 1 * 0 = 0; rw [e1]
  rw [h]

/-- Every point's weight block is the whole weight matrix. -/
theorem blkW_apply (c : Dev nD) (t : Fin cfg0.N) (k q : Fin 256) :
    blkW m c t (ix2 k q) = arrW m c (ix2 k q) := by
  obtain ⟨-, -, -, -, e0, e1, -⟩ := idx_facts t
  show V m c main_arg2 (((cfg0.win 2).blk t).view.emb (ix2 k q)) = V m c main_arg2 (ix2 k q)
  have h : ((cfg0.win 2).blk t).view.emb (ix2 k q) = ix2 k q := by
    funext a; apply Fin.ext
    match a with
    | ⟨0, _⟩ => show win0_2.index t (0 : Fin 2) * 256 + 1 * k.val = k.val; rw [e0]; omega
    | ⟨1, _⟩ => show win0_2.index t (1 : Fin 2) * 256 + 1 * q.val = q.val; rw [e1]; omega
  rw [h]

/-- Every point's bias block is the whole bias. -/
theorem blkB_apply (c : Dev nD) (t : Fin cfg0.N) (q : Fin 256) :
    blkB m c t (ix1 q) = arrB m c (ix1 q) := by
  obtain ⟨-, -, -, -, -, -, e0, -⟩ := idx_facts t
  show V m c main_arg3 (((cfg0.win 3).blk t).view.emb (ix1 q)) = V m c main_arg3 (ix1 q)
  have h : ((cfg0.win 3).blk t).view.emb (ix1 q) = ix1 q := by
    funext a; apply Fin.ext
    match a with
    | ⟨0, _⟩ => show win0_3.index t (0 : Fin 1) * 256 + 1 * q.val = q.val; rw [e0]; omega
  rw [h]

/-- Entry (p, q) of point t's output block is entry (4096 t + p, q) of the output. -/
theorem out_emb (t : Fin cfg0.N) (p : Fin 4096) (q : Fin 256) :
    ((cfg0.win 4).blk t).view.emb (ix2 p q) = ix2 (rowOf t p) q := by
  obtain ⟨-, -, -, -, -, -, -, e0, e1⟩ := idx_facts t
  funext a; apply Fin.ext
  match a with
  | ⟨0, _⟩ => show win0_4.index t (0 : Fin 2) * 4096 + 1 * p.val = t.val * 4096 + p.val; rw [e0]; omega
  | ⟨1, _⟩ => show win0_4.index t (1 : Fin 2) * 256 + 1 * q.val = q.val; rw [e1]; omega

/-! ## What a point writes back -/

/-- What point t writes back is block t of the row value of the arrays. -/
theorem flushed_eq (c : Dev nD) (t : Fin cfg0.N) :
    (dats m 0 c).flushed 4 t
      = ((cfg0.win 4).blk t).view.read (Elt Ideal) (rowValue (arrX m c) (arrM m c) (arrW m c) (arrB m c)) := by
  show (cfg0.win 4).cut (grid0.coords t) ((dats m 0 c).after 4 t) = _
  rw [after0_4]
  unfold out0_4
  rw [View.canon_unit_zero hz2]
  simp only [View.ld_unit_zero (S := S4096x256) hz2, View.ld_unit_zero (S := S256x256) hz2,
    View.ld_unit_zero (S := S4096x1) hz2, View.ld_unit_zero (S := S256) hz1]
  funext j
  obtain ⟨p, q, rfl⟩ : ∃ (p : Fin 4096) (q : Fin 256), j = ix2 p q := ⟨j 0, j 1, eq_ix2 j⟩
  show k0_pay1 (F := Ideal) (blkX m c t) (blkW m c t) (blkB m c t) (blkM m c t) (ix2 p q)
      = rowValue (arrX m c) (arrM m c) (arrW m c) (arrB m c) (((cfg0.win 4).blk t).view.emb (ix2 p q))
  rw [out_emb, stored_apply]
  show max ((∑ k : Fin 256, blkX m c t (ix2 p k) * blkW m c t (ix2 k q)) + blkB m c t (ix1 q))
        (Ideal.ofBits .f32 0x00000000#32) * blkM m c t (ix2 p (0 : Fin 1))
      = max ((∑ k : Fin 256, arrX m c (ix2 (rowOf t p) k) * arrW m c (ix2 k q)) + arrB m c (ix1 q))
        (Ideal.ofBits .f32 0x00000000#32) * arrM m c (ix2 (rowOf t p) (0 : Fin 1))
  rw [blkB_apply, blkM_apply]
  simp only [blkX_apply, blkW_apply]

/-! ## The blocks cover the rows -/

/-- An entry of the output is in point t's block iff its row is one of rows 4096 t … 4096 t + 4095. -/
theorem mem_blk (t : Fin cfg0.N) (i : S131072x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v3).slice (win0_4.rect t)).set ↔ _
  rw [View.set_slice_whole, Rect.mem_set_unit]
  exact Iff.rfl

/-- Every entry is in the block of the point its row's quotient by 4096 names. -/
theorem cover (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  have hN : cfg0.N = 32 := N_0
  refine ⟨⟨(i 0).val / 4096, by rw [hN]; omega⟩, flush0_4 _, ?_⟩
  obtain ⟨-, -, -, -, -, -, -, e0, e1⟩ := idx_facts (⟨(i 0).val / 4096, by rw [hN]; omega⟩ : Fin cfg0.N)
  rw [mem_blk]
  intro a
  match a with
  | ⟨0, _⟩ =>
    show win0_4.index _ (0 : Fin 2) * 4096 ≤ (i 0).val ∧ (i 0).val < win0_4.index _ (0 : Fin 2) * 4096 + 4096
    rw [e0]
    show (i 0).val / 4096 * 4096 ≤ (i 0).val ∧ (i 0).val < (i 0).val / 4096 * 4096 + 4096
    omega
  | ⟨1, _⟩ =>
    show win0_4.index _ (1 : Fin 2) * 256 ≤ (i 1).val ∧ (i 1).val < win0_4.index _ (1 : Fin 2) * 256 + 256
    rw [e1]
    omega

/-- The output array after the run is the row value of the arrays the region found. -/
theorem final (c : Dev nD) :
    (dats m 0 c).arrAt 4 cfg0.N = rowValue (arrX m c) (arrM m c) (arrW m c) (arrB m c) :=
  (dats m 0 c).arrAt_eq_of_cover 4 _ (fun t _ => flushed_eq m c t) cover

/-! ## The host lines before the region -/

/-- The region's first operand is the input with its tokens flattened to rows. -/
theorem arrX_eq (c : Dev nD) :
    arrX m c = shapeCast S131072x256 (m ((c : Thread nD τ).loc main_arg0)) shapeCasts_S32x4096x256_S131072x256 := by
  show StableHlo.after hostOps0 (fun b => m (c, b)) (Proc.devRef .tc main_v0) = _
  after_results
  rfl

/-- Its second operand is the mask flattened to a column, each bit read as the number 0 or 1. -/
theorem arrM_eq (c : Dev nD) :
    arrM m c = uitofp (F := Ideal) .f32
      (shapeCast S131072x1 (m ((c : Thread nD τ).loc main_arg1)) shapeCasts_S32x4096_S131072x1) := by
  show StableHlo.after hostOps0 (fun b => m (c, b)) (Proc.devRef .tc main_v2) = _
  after_results
  rfl

/-! ## The host line after the region -/

/-- The program's result is the output rows unflattened to the batch of tokens. -/
theorem result_eq (c : Dev nD) :
    Pipeline.afterTail₀ cfgs (dats m) 0 (V0 m) [hostOps1] c main_v4
      = shapeCast S32x4096x256 (rowValue (arrX m c) (arrM m c) (arrW m c) (arrB m c))
          shapeCasts_S131072x256_S32x4096x256 := by
  have hw := (Pipeline.withArrays_arr spec0 launch0.win.arr_inj c (V0 m c)
    (fun w => (dats m 0 c).arrAt w cfg0.N) 4).trans (final m c)
  unfold Pipeline.afterTail₀
  show StableHlo.after hostOps1 _ (Proc.devRef .tc main_v4) = _
  after_results
  exact congrArg (fun A => shapeCast S32x4096x256 A shapeCasts_S131072x256_S32x4096x256) hw

/-- Token by token, that result is the masked rectified affine map of the four arguments. -/
theorem result_masked (c : Dev nD) :
    Pipeline.afterTail₀ cfgs (dats m) 0 (V0 m) [hostOps1] c main_v4
      = masked (m ((c : Thread nD τ).loc main_arg0)) (m ((c : Thread nD τ).loc main_arg1))
          (m ((c : Thread nD τ).loc main_arg2)) (m ((c : Thread nD τ).loc main_arg3)) := by
  rw [result_eq]
  funext i
  obtain ⟨b, s, e, rfl⟩ : ∃ (b : Fin 32) (s : Fin 4096) (e : Fin 256), i = ix3 b s e := ⟨i 0, i 1, i 2, eq_ix3 i⟩
  have hb := b.isLt
  have hs := s.isLt
  have hW : arrW m c = m ((c : Thread nD τ).loc main_arg2) := V_main_arg2 m c
  have hB : arrB m c = m ((c : Thread nD τ).loc main_arg3) := V_main_arg3 m c
  have hX : ∀ k : Fin 256, arrX m c (ix2 (⟨b.val * 4096 + s.val, by omega⟩ : Fin 131072) k)
      = m ((c : Thread nD τ).loc main_arg0) (ix3 b s k) := fun k => by
    rw [arrX_eq]
    exact flatten_apply _ _ b s k _ rfl
  have hM : arrM m c (ix2 (⟨b.val * 4096 + s.val, by omega⟩ : Fin 131072) (0 : Fin 1))
      = ((((m ((c : Thread nD τ).loc main_arg1) (ix2 b s) : BitVec 1)).toNat : ℝ) : EReal) := by
    rw [arrM_eq]
    show FloatOps.uitofp (F := Ideal) .f32 (shapeCast S131072x1 (m ((c : Thread nD τ).loc main_arg1))
      shapeCasts_S32x4096_S131072x1 (ix2 (⟨b.val * 4096 + s.val, by omega⟩ : Fin 131072) (0 : Fin 1))) = _
    rw [flattenMask_apply _ _ b s _ rfl]
    rfl
  rw [unflatten_apply _ _ b s e (⟨b.val * 4096 + s.val, by omega⟩ : Fin 131072) rfl, ← hW, ← hB]
  exact rowValue_eq_masked _ _ _ _ _ _ b s e _ hX hM

/-! ## The run -/

/-- Every weakly fair execution of the kernel's program terminates with its result at the masked rectified affine map
    of the arguments, and the arguments unchanged. -/
theorem run : θ_run defs (onTc (τ := τ) (main (F := Ideal))) ⟨m, fun _ => 0, ρ⟩ fun r => ∀ c : Dev nD,
      r.2.mem ((c.tc : Thread nD τ).loc main_v4)
        = masked (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans (result_masked m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Rows

end
-- ==== Proof.lean ====
/-
  A linear layer with ReLU applied to every token, the padded tokens zeroed: the kernel against its reference.

  Inputs: x : f32[32, 4096, 256], a boolean mask[32, 4096], W : f32[256, 256], bias : f32[256]. Both programs end with
      out[b, s, e] = max (Σ_k x[b, s, k] · W[k, e] + bias[e]) 0    where mask[b, s] is set, and 0 where it is clear
  as extended reals (`Cert.MaskedLinear.masked`).

  The reference computes the rectified affine map by one contraction over the last axis of x and then SELECTS, by the
  mask broadcast along the channels, between it and zero (Proof/Reference.lean, over the generated reading of its run).
  The kernel flattens the tokens to 131072 rows and the mask to a column of the numbers 0 and 1; grid point t takes rows
  4096 t … 4096 t + 4095, forms their products with W (the change of float format before the product is the identity
  on the extended reals, the product into a zero accumulator the plain sum), adds the bias, rectifies, MULTIPLIES by
  the mask column, and writes the rows back; the 32 blocks cover all rows and the rows are unflattened
  (Proof/KernelBody.lean for an entry of a block, Proof/KernelRows.lean for the array and the run). Row b · 4096 + s is
  token (b, s), the two sums run over the same entries, and y · 1 = y, y · 0 = 0 for every extended real y join the
  product with the selection (Proof/MaskedLinear.lean). No step needs the inputs finite, so the precondition is never
  opened.

  The three frames: the kernel's two are the generated frame certificates; the reference's is its generated run with
  the result dropped. The idealization rewrote nothing, so `preserves` has nothing to state.
-/
import proofs.«110262_j10806137716859_1_alg».proof.Defs
import proofs.«110262_j10806137716859_1_alg».proof.Proof.Gen.Kernel
import proofs.«110262_j10806137716859_1_alg».proof.Proof.Gen.Kernel.Skeleton
import proofs.«110262_j10806137716859_1_alg».proof.Proof.Gen.Kernel.Launch
import proofs.«110262_j10806137716859_1_alg».proof.Proof.Gen.Kernel.Points
import proofs.«110262_j10806137716859_1_alg».proof.Proof.Gen.Kernel.Frame
import proofs.«110262_j10806137716859_1_alg».proof.Proof.Gen.KernelIdeal
import proofs.«110262_j10806137716859_1_alg».proof.Proof.Gen.KernelIdeal.Skeleton
import proofs.«110262_j10806137716859_1_alg».proof.Proof.Gen.KernelIdeal.Launch
import proofs.«110262_j10806137716859_1_alg».proof.Proof.Gen.KernelIdeal.Points
import proofs.«110262_j10806137716859_1_alg».proof.Proof.Gen.KernelIdeal.Frame
import proofs.«110262_j10806137716859_1_alg».proof.Proof.Gen.ReferenceIdeal
import proofs.«110262_j10806137716859_1_alg».proof.Proof.Gen.Pre_finite_inputs
import proofs.«110262_j10806137716859_1_alg».proof.Proof.Gen.ReferenceIdeal.Run
import proofs.«110262_j10806137716859_1_alg».proof.Proof.Gen.ReferenceIdeal.Read
import proofs.«110262_j10806137716859_1_alg».proof.Proof.MaskedLinear
import proofs.«110262_j10806137716859_1_alg».proof.Proof.Reference
import proofs.«110262_j10806137716859_1_alg».proof.Proof.KernelRows
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end at the masked rectified affine map of them. -/
theorem algebraic : Cert.algebraic_KernelIdeal_ReferenceIdeal := by
  intro m ρ m' ρ' _ hagree
  refine ⟨fun c => Cert.MaskedLinear.masked
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq_masked,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
